-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S16x100x512 : Shape := ⟨3, ![16, 100, 512]⟩
abbrev S16x100 : Shape := ⟨2, ![16, 100]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S16x100x512 : S_.BroadcastsInDim S16x100x512 (![] : Fin 0 → Fin S16x100x512.rank)
  reducesTo_S16x100x512_S_d0_1_2 : S16x100x512.ReducesTo [0, 1, 2] S_
  bcast_S_S16x100 : S_.BroadcastsInDim S16x100 (![] : Fin 0 → Fin S16x100.rank)
  reducesTo_S16x100_S_d0_1 : S16x100.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg1 : IVec S65536 32) (main_v13 : IVec S_ 1) (main_v15 : IVec S65536 1) (main_c_5 : IVec S_ 1) : IVec S_ 1 :=
  let main_v16 : IVec S_ 1 := (fun x v => Host.reduce IntOp.andi x v reducesTo_S65536_S_d0 h_S_) main_v15 main_c_5
  let main_v17 : IVec S_ 1 := andi main_v13 main_v16
  let main_c_6 : IVec S_ 32 := constantI S_ 32 16#32
  let main_v18 : IVec S65536 32 := broadcastInDim S65536 ![] bcast_S_S65536 main_c_6
  let main_v19 : IVec S65536 1 := cmpi .slt main_arg1 main_v18
  let main_c_7 : IVec S_ 1 := constantI S_ 1 1#1
  let main_v20 : IVec S_ 1 := (fun x v => Host.reduce IntOp.andi x v reducesTo_S65536_S_d0 h_S_) main_v19 main_c_7
  let main_v21 : IVec S_ 1 := andi main_v17 main_v20
  main_v21

def fn {F : FTy → Type} [FloatOps F] (main_arg0 : FVec F S65536x512 .f32) (main_arg1 : IVec S65536 32) (main_arg2 : FVec F S16x100x512 .f32) (main_arg3 : FVec F S16x100 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S16x100x512 .f32 := Host.absf main_arg2
  let main_cst_0 : FVec F S_ .f32 := constant S_ .f32 0x7F800000#32
  let main_v5 : FVec F S16x100x512 .f32 := broadcastInDim S16x100x512 ![] bcast_S_S16x100x512 main_cst_0
  let main_v6 : IVec S16x100x512 1 := cmpf .olt main_v4 main_v5
  let main_c_1 : IVec S_ 1 := constantI S_ 1 1#1
  let main_v7 : IVec S_ 1 := (fun x v => Host.reduce IntOp.andi x v reducesTo_S16x100x512_S_d0_1_2 h_S_) main_v6 main_c_1
  let main_v8 : IVec S_ 1 := andi main_v3 main_v7
  let main_v9 : FVec F S16x100 .f32 := Host.absf main_arg3
  let main_cst_2 : FVec F S_ .f32 := constant S_ .f32 0x7F800000#32
  let main_v10 : FVec F S16x100 .f32 := broadcastInDim S16x100 ![] bcast_S_S16x100 main_cst_2
  let main_v11 : IVec S16x100 1 := cmpf .olt main_v9 main_v10
  let main_c_3 : IVec S_ 1 := constantI S_ 1 1#1
  let main_v12 : IVec S_ 1 := (fun x v => Host.reduce IntOp.andi x v reducesTo_S16x100_S_d0_1 h_S_) main_v11 main_c_3
  let main_v13 : IVec S_ 1 := andi main_v8 main_v12
  let main_c_4 : IVec S_ 32 := constantI S_ 32 0#32
  let main_v14 : IVec S65536 32 := broadcastInDim S65536 ![] bcast_S_S65536 main_c_4
  let main_v15 : IVec S65536 1 := cmpi .sge main_arg1 main_v14
  let main_c_5 : IVec S_ 1 := constantI S_ 1 1#1
  fn_part1 (F := F) main_arg1 main_v13 main_v15 main_c_5
-- ==== Kernel.lean ====
abbrev S65536x512 : Shape := ⟨2, ![65536, 512]⟩
abbrev S65536 : Shape := ⟨1, ![65536]⟩
abbrev S16x100x512 : Shape := ⟨3, ![16, 100, 512]⟩
abbrev S16x100 : Shape := ⟨2, ![16, 100]⟩
abbrev S_ : Shape := ⟨0, ![]⟩
abbrev S16x128x512 : Shape := ⟨3, ![16, 128, 512]⟩
abbrev S16x128 : Shape := ⟨2, ![16, 128]⟩
abbrev S512x16x128 : Shape := ⟨3, ![512, 16, 128]⟩
abbrev S512x2048 : Shape := ⟨2, ![512, 2048]⟩
abbrev S1x2048 : Shape := ⟨2, ![1, 2048]⟩
abbrev S128 : Shape := ⟨1, ![128]⟩
abbrev S1x128 : Shape := ⟨2, ![1, 128]⟩
abbrev S16 : Shape := ⟨1, ![16]⟩
abbrev S16x1 : Shape := ⟨2, ![16, 1]⟩
abbrev S65536x1 : Shape := ⟨2, ![65536, 1]⟩
abbrev S65536x100 : Shape := ⟨2, ![65536, 100]⟩
abbrev S1024x512 : Shape := ⟨2, ![1024, 512]⟩
abbrev S1024x1 : Shape := ⟨2, ![1024, 1]⟩
abbrev S1024x100 : Shape := ⟨2, ![1024, 100]⟩
abbrev S1024x2048 : Shape := ⟨2, ![1024, 2048]⟩
abbrev S1024x128 : Shape := ⟨2, ![1024, 128]⟩

abbrev nBuf : Space → Nat
  | .hbm => 29
  | .vmem => 9
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S16x100x512, .f32⟩
  | .hbm, ⟨3, _⟩ => ⟨S16x100, .f32⟩
  | .hbm, ⟨4, _⟩ => ⟨S_, .i32⟩
  | .hbm, ⟨5, _⟩ => ⟨S_, .f32⟩
  | .hbm, ⟨6, _⟩ => ⟨S16x128x512, .f32⟩
  | .hbm, ⟨7, _⟩ => ⟨S_, .i32⟩
  | .hbm, ⟨8, _⟩ => ⟨S_, .f32⟩
  | .hbm, ⟨9, _⟩ => ⟨S16x128, .f32⟩
  | .hbm, ⟨10, _⟩ => ⟨S512x16x128, .f32⟩
  | .hbm, ⟨11, _⟩ => ⟨S512x2048, .f32⟩
  | .hbm, ⟨12, _⟩ => ⟨S1x2048, .f32⟩
  | .hbm, ⟨13, _⟩ => ⟨S128, .i32⟩
  | .hbm, ⟨14, _⟩ => ⟨S1x128, .i32⟩
  | .hbm, ⟨15, _⟩ => ⟨S16, .i32⟩
  | .hbm, ⟨16, _⟩ => ⟨S16x1, .i32⟩
  | .hbm, ⟨17, _⟩ => ⟨S_, .i32⟩
  | .hbm, ⟨18, _⟩ => ⟨S1x128, .i32⟩
  | .hbm, ⟨19, _⟩ => ⟨S1x128, .i1⟩
  | .hbm, ⟨20, _⟩ => ⟨S_, .i32⟩
  | .hbm, ⟨21, _⟩ => ⟨S_, .i32⟩
  | .hbm, ⟨22, _⟩ => ⟨S16x128, .i1⟩
  | .hbm, ⟨23, _⟩ => ⟨S16x128, .i32⟩
  | .hbm, ⟨24, _⟩ => ⟨S16x128, .i32⟩
  | .hbm, ⟨25, _⟩ => ⟨S16x128, .i32⟩
  | .hbm, ⟨26, _⟩ => ⟨S1x2048, .i32⟩
  | .hbm, ⟨27, _⟩ => ⟨S65536x1, .i32⟩
  | .hbm, ⟨28, _⟩ => ⟨S65536x100, .f32⟩
  | .local _ .vmem, ⟨0, _⟩ => ⟨S1024x512, .f32⟩
  | .local _ .vmem, ⟨1, _⟩ => ⟨S1024x512, .f32⟩
  | .local _ .vmem, ⟨2, _⟩ => ⟨S1024x1, .i32⟩
  | .local _ .vmem, ⟨3, _⟩ => ⟨S1024x1, .i32⟩
  | .local _ .vmem, ⟨4, _⟩ => ⟨S512x2048, .f32⟩
  | .local _ .vmem, ⟨5, _⟩ => ⟨S1x2048, .f32⟩
  | .local _ .vmem, ⟨6, _⟩ => ⟨S1x2048, .i32⟩
  | .local _ .vmem, ⟨7, _⟩ => ⟨S1024x100, .f32⟩
  | .local _ .vmem, ⟨8, _⟩ => ⟨S1024x100, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S16x100x512_S16x128x512_000_0280_000 : S16x100x512.Pads (![0, 0, 0] : Fin 3 → Nat) ![0, 28, 0] ![0, 0, 0] S16x128x512
  h_S_ : 0 < S_.numel
  pads_S16x100_S16x128_000_0280 : S16x100.Pads (![0, 0] : Fin 2 → Nat) ![0, 28] ![0, 0] S16x128
  transposes_S16x128x512_S512x16x128_2_0_1 : S16x128x512.Transposes [2, 0, 1] S512x16x128
  shapeCasts_S512x16x128_S512x2048 : S512x16x128.ShapeCasts S512x2048
  shapeCasts_S16x128_S1x2048 : S16x128.ShapeCasts S1x2048
  bcast_S128_S1x128_1 : S128.BroadcastsInDim S1x128 (![1] : Fin 1 → Fin S1x128.rank)
  bcast_S16_S16x1_0 : S16.BroadcastsInDim S16x1 (![0] : Fin 1 → Fin S16x1.rank)
  bcast_S_S1x128 : S_.BroadcastsInDim S1x128 (![] : Fin 0 → Fin S1x128.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x128 : S_.BroadcastsInDim S16x128 (![] : Fin 0 → Fin S16x128.rank)
  shapeCasts_S65536_S65536x1 : S65536.ShapeCasts S65536x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  slices_S1024x2048_o0_0_S1024x128 : S1024x2048.Slices ![0, 0] S1024x128
  slices_S1024x2048_o0_128_S1024x128 : S1024x2048.Slices ![0, 128] S1024x128
  slices_S1024x2048_o0_256_S1024x128 : S1024x2048.Slices ![0, 256] S1024x128
  slices_S1024x2048_o0_384_S1024x128 : S1024x2048.Slices ![0, 384] S1024x128
  slices_S1024x2048_o0_512_S1024x128 : S1024x2048.Slices ![0, 512] S1024x128
  slices_S1024x2048_o0_640_S1024x128 : S1024x2048.Slices ![0, 640] S1024x128
  slices_S1024x2048_o0_768_S1024x128 : S1024x2048.Slices ![0, 768] S1024x128
  slices_S1024x2048_o0_896_S1024x128 : S1024x2048.Slices ![0, 896] S1024x128
  slices_S1024x2048_o0_1024_S1024x128 : S1024x2048.Slices ![0, 1024] S1024x128
  slices_S1024x2048_o0_1152_S1024x128 : S1024x2048.Slices ![0, 1152] S1024x128
  slices_S1024x2048_o0_1280_S1024x128 : S1024x2048.Slices ![0, 1280] S1024x128
  slices_S1024x2048_o0_1408_S1024x128 : S1024x2048.Slices ![0, 1408] S1024x128
  slices_S1024x2048_o0_1536_S1024x128 : S1024x2048.Slices ![0, 1536] S1024x128
  slices_S1024x2048_o0_1664_S1024x128 : S1024x2048.Slices ![0, 1664] S1024x128
  slices_S1024x2048_o0_1792_S1024x128 : S1024x2048.Slices ![0, 1792] S1024x128
  slices_S1024x2048_o0_1920_S1024x128 : S1024x2048.Slices ![0, 1920] S1024x128
  slices_S1024x128_o0_0_S1024x100 : S1024x128.Slices ![0, 0] S1024x100
  inb_S1024x100_S1024x100_0_0 : ∀ a, (![0, 0] : Fin 2 → Nat) a + S1024x100.size a ≤ S1024x100.size a
  h_S1024x100 : 0 < S1024x100.numel
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .f32 = 32 ∨ (Rect.block (s := S512x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .i32 = 32 ∨ (Rect.block (s := S1x2048) S1x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x100.size a ≤ S65536x100.size a
  hwx0_5 : ∀ i : grid0.Coords, EltTy.bits .f32 = 32 ∨ (Rect.block (s := S65536x100) S1024x100.size (cc0_transform_5 i) (hinb0_5 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1024x100.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S16x100x512 : Shape := ⟨3, ![16, 100, 512]⟩
abbrev S16x100 : Shape := ⟨2, ![16, 100]⟩
abbrev S65536x16x100 : Shape := ⟨3, ![65536, 16, 100]⟩
abbrev S1x16x100 : Shape := ⟨3, ![1, 16, 100]⟩
abbrev S65536x1x1 : Shape := ⟨3, ![65536, 1, 1]⟩
abbrev S_ : Shape := ⟨0, ![]⟩
abbrev S1 : Shape := ⟨1, ![1]⟩
abbrev S1x1x1 : Shape := ⟨3, ![1, 1, 1]⟩
abbrev S65536x1 : Shape := ⟨2, ![65536, 1]⟩
abbrev S65536x1x100 : Shape := ⟨3, ![65536, 1, 100]⟩
abbrev S65536x100 : Shape := ⟨2, ![65536, 100]⟩

abbrev nBuf : Space → Nat
  | .hbm => 32
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S16x100x512, .f32⟩
  | .hbm, ⟨3, _⟩ => ⟨S16x100, .f32⟩
  | .hbm, ⟨4, _⟩ => ⟨S65536x16x100, .f32⟩
  | .hbm, ⟨5, _⟩ => ⟨S1x16x100, .f32⟩
  | .hbm, ⟨6, _⟩ => ⟨S65536x16x100, .f32⟩
  | .hbm, ⟨7, _⟩ => ⟨S65536x16x100, .f32⟩
  | .hbm, ⟨8, _⟩ => ⟨S65536x1x1, .i32⟩
  | .hbm, ⟨9, _⟩ => ⟨S_, .i32⟩
  | .hbm, ⟨10, _⟩ => ⟨S65536x1x1, .i32⟩
  | .hbm, ⟨11, _⟩ => ⟨S65536x1x1, .i1⟩
  | .hbm, ⟨12, _⟩ => ⟨S_, .i32⟩
  | .hbm, ⟨13, _⟩ => ⟨S65536x1x1, .i32⟩
  | .hbm, ⟨14, _⟩ => ⟨S65536x1x1, .i32⟩
  | .hbm, ⟨15, _⟩ => ⟨S65536x1x1, .i32⟩
  | .hbm, ⟨16, _⟩ => ⟨S1, .i32⟩
  | .hbm, ⟨17, _⟩ => ⟨S_, .i32⟩
  | .hbm, ⟨18, _⟩ => ⟨S65536x1x1, .i32⟩
  | .hbm, ⟨19, _⟩ => ⟨S65536x1x1, .i1⟩
  | .hbm, ⟨20, _⟩ => ⟨S1x1x1, .i32⟩
  | .hbm, ⟨21, _⟩ => ⟨S65536x1x1, .i32⟩
  | .hbm, ⟨22, _⟩ => ⟨S65536x1x1, .i1⟩
  | .hbm, ⟨23, _⟩ => ⟨S65536x1x1, .i1⟩
  | .hbm, ⟨24, _⟩ => ⟨S_, .i1⟩
  | .hbm, ⟨25, _⟩ => ⟨S65536x1, .i1⟩
  | .hbm, ⟨26, _⟩ => ⟨S65536x1x100, .f32⟩
  | .hbm, ⟨27, _⟩ => ⟨S65536x1x100, .i1⟩
  | .hbm, ⟨28, _⟩ => ⟨S_, .f32⟩
  | .hbm, ⟨29, _⟩ => ⟨S65536x1x100, .f32⟩
  | .hbm, ⟨30, _⟩ => ⟨S65536x1x100, .f32⟩
  | .hbm, ⟨31, _⟩ => ⟨S65536x100, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S16x100_S1x16x100_1_2 : S16x100.BroadcastsInDim S1x16x100 (![1, 2] : Fin 2 → Fin S1x16x100.rank)
  bcast_S1x16x100_S65536x16x100_0_1_2 : S1x16x100.BroadcastsInDim S65536x16x100 (![0, 1, 2] : Fin 3 → Fin S65536x16x100.rank)
  bcast_S65536_S65536x1x1_0 : S65536.BroadcastsInDim S65536x1x1 (![0] : Fin 1 → Fin S65536x1x1.rank)
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  h_S_ : 0 < S_.numel
  bcast_S65536x1_S65536x1x100_0_1 : S65536x1.BroadcastsInDim S65536x1x100 (![0, 1] : Fin 2 → Fin S65536x1x100.rank)
  bcast_S_S65536x1x100 : S_.BroadcastsInDim S65536x1x100 (![] : Fin 0 → Fin S65536x1x100.rank)
  shapeCasts_S65536x1x100_S65536x100 : S65536x1x100.ShapeCasts S65536x100
  dot_S65536x512_S16x100x512_S65536x16x100_1_2_0_01_n_n_wf : DotDims.WF S65536x512 S16x100x512 S65536x16x100 [1] [2] [0] [0, 1] [] []
  gather_S65536x16x100_S65536x1x1_S65536x1x100_2_1_0_0_1_2_11100_wf : GatherDims.WF S65536x16x100 S65536x1x1 S65536x1x100 [2] [1] [0] [1] [0] 2 ![1, 1, 100]

variable [Facts₀]

def dot_S65536x512_S16x100x512_S65536x16x100_1_2_0_01_n_n : DotDims S65536x512 S16x100x512 S65536x16x100 where
  lhsContracting := [1]
  rhsContracting := [2]
  lhsNonContracting := [0]
  rhsNonContracting := [0, 1]
  lhsBatch := []
  rhsBatch := []
  wf := dot_S65536x512_S16x100x512_S65536x16x100_1_2_0_01_n_n_wf
def gather_S65536x16x100_S65536x1x1_S65536x1x100_2_1_0_0_1_2_11100 : GatherDims S65536x16x100 S65536x1x1 S65536x1x100 where
  offsetDims := [2]
  collapsedSliceDims := [1]
  operandBatchingDims := [0]
  startIndicesBatchingDims := [0]
  startIndexMap := [1]
  indexVectorDim := 2
  sliceSizes := ![1, 1, 100]
  wf := gather_S65536x16x100_S65536x1x1_S65536x1x100_2_1_0_0_1_2_11100_wf

class Facts : Prop extends Facts₀ where

variable [Facts]
-- ==== Proof.PreRange.lean ====
/-
  The precondition read back: where the printed predicate is 1, every task word names one of the sixteen heads.

  The predicate is the conjunction of three finiteness tests (not needed: the claim's arithmetic never divides or
  distributes) and two range tests on the task words, `0 ≤ t` and `t < 16`, both signed; together they say the word,
  read unsigned, is below 16.
-/
import proofs.«423438_j69303592288436_2_alg».proof.Pre_finite_inputs
import Idealize.ShloMosaic.Lib.ReduceAll
import Idealize.ShloMosaic.Lib.ValueIdx

noncomputable section

namespace Cert.Heads.Pre

open Idealize.ShloMosaic Idealize.ShloMosaic.ValueIdx Cert.Pre_finite_inputs

variable [Cert.Pre_finite_inputs.Facts]

instance : Subsingleton S_.Idx := ⟨fun a b => funext fun d => d.elim0⟩

/-- A word that is non-negative and below 16 when read signed is below 16 when read unsigned. -/
theorem toNat_lt_of_toInt (t : BitVec 32) (h0 : (0 : Int) ≤ t.toInt) (h1 : t.toInt < 16) : t.toNat < 16 := by
  rw [BitVec.toInt_eq_toNat_cond] at h0 h1
  have := t.isLt
  split at h0 <;> omega

/-- Under the precondition every task word is below 16. -/
theorem task_lt {F : FTy → Type} [FloatOps F] (x0 : FVec F S65536x512 .f32) (x1 : IVec S65536 32)
    (x2 : FVec F S16x100x512 .f32) (x3 : FVec F S16x100 .f32)
    (h : fn (F := F) x0 x1 x2 x3 = fun _ => 1#1) (r : Fin 65536) : (x1 (ix1 r)).toNat < 16 := by
  have h0 := congrFun h ix0
  dsimp only [fn, fn_part1] at h0
  obtain ⟨h17, h20⟩ := IntOp.andi_eq_one.1 h0
  obtain ⟨_, h16⟩ := IntOp.andi_eq_one.1 h17
  have hge := Host.reduce_andi_all _ _ _ _ _ h16 (ix1 r)
  have hlt := Host.reduce_andi_all _ _ _ _ _ h20 (ix1 r)
  have hge' : (0#32 : BitVec 32).toInt ≤ (x1 (ix1 r)).toInt := IntOp.cmpi_sge.1 hge
  have hlt' : (x1 (ix1 r)).toInt < (16#32 : BitVec 32).toInt := IntOp.cmpi_slt.1 hlt
  exact toNat_lt_of_toInt _ (by simpa using hge') (by simpa using hlt')

end Cert.Heads.Pre

end
-- ==== Proof.Spec.lean ====
/-
  The routed linear head, stated once: sample `r` is sent to the head its task word names, and the result at `(r, o)`
  is that head's row `o` of weights against the sample's features, plus that head's bias at `o`.

  The kernel reaches this value as a sum over all sixteen heads of terms of which fifteen are masked to zero; the
  arithmetic of that sum (`sum_pick`) and of one masked term (`select_eq_pick`) is here too, over plain extended reals.
-/
import Idealize.ShloMosaic.PureOps.Ideal
import Idealize.ShloMosaic.Lib.ValueIdx
import Idealize.ShloMosaic.Lib.Affine
import Mathlib.Tactic.IntervalCases

noncomputable section

namespace Cert.Heads

open Idealize.ShloMosaic Idealize.ShloMosaic.ValueIdx

/-- The head sample `r` is routed to: its task word read unsigned (and kept below 16, so that it names a head whatever
    the word; under the precondition every task word is already below 16). -/
def head (tid : IVec ⟨1, ![65536]⟩ 32) (r : Fin 65536) : Fin 16 := ⟨min (tid (ix1 r)).toNat 15, by omega⟩

/-- Head `h`'s logit `o` for sample `r`: `∑ₖ x[r, k] · W[h, o, k] + b[h, o]`. -/
def logit (x : FVec Ideal ⟨2, ![65536, 512]⟩ .f32) (W : FVec Ideal ⟨3, ![16, 100, 512]⟩ .f32)
    (bias : FVec Ideal ⟨2, ![16, 100]⟩ .f32) (r : Fin 65536) (h : Fin 16) (o : Fin 100) : EReal :=
  (∑ k : Fin 512, x (ix2 r k) * W (ix3 h o k)) + bias (ix2 h o)

/-- THE RESULT: at `(r, o)` the logit `o` of the head that sample `r`'s task word names. -/
def routed (x : FVec Ideal ⟨2, ![65536, 512]⟩ .f32) (tid : IVec ⟨1, ![65536]⟩ 32)
    (W : FVec Ideal ⟨3, ![16, 100, 512]⟩ .f32) (bias : FVec Ideal ⟨2, ![16, 100]⟩ .f32) :
    FVec Ideal ⟨2, ![65536, 100]⟩ .f32 :=
  fun j => logit x W bias (j 0) (head tid (j 0)) (j 1)

/-- One term of the kernel's sum over heads: head `h`'s value where the task number `n` is `h`, zero elsewhere. -/
def pick (n h : Nat) (a : EReal) : EReal := if n = h then a else 0

/-- A select on "the task word equals the word of `h`" between a value and zero is that term. -/
theorem select_eq_pick (t : BitVec 32) (h : Nat) (hh : h < 2 ^ 32) (a : EReal) :
    Scalar.select (IntOp.cmpi .eq t (BitVec.ofNat 32 h)) a (0 : EReal) = pick t.toNat h a := by
  unfold pick
  by_cases e : t.toNat = h
  · have ht : t = BitVec.ofNat 32 h :=
      BitVec.eq_of_toNat_eq (by rw [BitVec.toNat_ofNat, Nat.mod_eq_of_lt hh]; exact e)
    rw [if_pos e, IntOp.cmpi_eq.2 ht, select_one]
  · have hne : ¬t = BitVec.ofNat 32 h := fun h' => e (by rw [h', BitVec.toNat_ofNat, Nat.mod_eq_of_lt hh])
    have hz : IntOp.cmpi .eq t (BitVec.ofNat 32 h) = 0#1 := eq_zero_of_ne_one fun h1 => hne (IntOp.cmpi_eq.1 h1)
    rw [if_neg e, hz, select_zero]

/-- Summed over the sixteen heads in the kernel's order, the masked terms leave exactly the routed head's value:
    fifteen of them are zero, and adding zero changes no extended real. -/
theorem sum_pick (f : Nat → EReal) (n : Nat) (hn : n < 16) :
    pick n 0 (f 0) + pick n 1 (f 1) + pick n 2 (f 2) + pick n 3 (f 3) + pick n 4 (f 4) + pick n 5 (f 5)
      + pick n 6 (f 6) + pick n 7 (f 7) + pick n 8 (f 8) + pick n 9 (f 9) + pick n 10 (f 10) + pick n 11 (f 11)
      + pick n 12 (f 12) + pick n 13 (f 13) + pick n 14 (f 14) + pick n 15 (f 15) = f n := by
  interval_cases n <;> simp [pick]

end Cert.Heads

end
-- ==== Proof.Masked.lean ====
/-
  The kernel's block as a function of its loads, in closed form.

  Row `p` of a block carries one task word. Column `c` of the wide logits is the dense product of the row's features with
  column `c` of the flattened weights, plus the flattened bias at `c`; it survives the mask only where the task word equals
  the task number the table gives column `c`. The stored value at `(p, q)` adds the sixteen masked columns `q`, `q + 128`, …,
  `q + 1920` — one per head. Where the table gives column `q + 128·h` the number `h`, fifteen of the sixteen terms are zero
  and the sum is the logit of the row's own head.
-/
import proofs.«423438_j69303592288436_2_alg».proof.Proof.Gen.KernelIdeal.Value
import proofs.«423438_j69303592288436_2_alg».proof.Proof.Spec
import Idealize.ShloMosaic.Lib.ValueIdx
import Idealize.ShloMosaic.Lib.Pipeline.Value
import Idealize.ShloMosaic.PureOps.Ideal.Laws

noncomputable section

namespace Cert.KernelIdeal.Masked

open Cert.KernelIdeal Cert.KernelIdeal.Gen Idealize.ShloMosaic Idealize.ShloMosaic.TcCoe Idealize.SL.Sem
open Idealize.ShloMosaic.ValueIdx

/-! ## The dense product read at an index -/

theorem lhs_axis0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_axis1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_axis0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_axis1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- Into a zero accumulator the product at `(p, c)` is `∑ₖ a[p, k] · b[k, c]`. -/
theorem dense_apply (a : FVec Ideal S1024x512 .bf16) (b : FVec Ideal S512x2048 .bf16) (p : Fin 1024) (c : Fin 2048) :
    matmul (F := Ideal) dot_S1024x512_S512x2048_S1024x2048_1_0_0_1_n_n none a b (constant (F := Ideal) S1024x2048 .f32 0x00000000#32) (ix2 p c)
      = ∑ k : Fin 512, a (ix2 p k) * b (ix2 k c) := by
  simp only [matmul]
  rw [Ideal.matmul_constant_zero_apply, ← Equiv.sum_comp (ValueIdx.contrEquiv1 dot_S1024x512_S512x2048_S1024x2048_1_0_0_1_n_n 512 rfl rfl).symm]
  refine Finset.sum_congr rfl fun k _ => ?_
  have hk := ValueIdx.contrEquiv1_symm_val dot_S1024x512_S512x2048_S1024x2048_1_0_0_1_n_n 512 rfl rfl k
  have el : dot_S1024x512_S512x2048_S1024x2048_1_0_0_1_n_n.lhsIdx (ix2 p c) ((ValueIdx.contrEquiv1 dot_S1024x512_S512x2048_S1024x2048_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x2048_S1024x2048_1_0_0_1_n_n.rhsIdx (ix2 p c) ((ValueIdx.contrEquiv1 dot_S1024x512_S512x2048_S1024x2048_1_0_0_1_n_n 512 rfl rfl).symm k) = ix2 k c := funext fun a => Fin.ext (by
    match a with
    | ⟨0, _⟩ => exact (rhs_axis0 _ _).trans hk
    | ⟨1, _⟩ => exact rhs_axis1 _ _)
  rw [el, er]

/-! ## One masked column -/

/-- The row's task word laid along the columns reads, at `(p, c)`, the word of row `p`. -/
theorem rowWord_apply (v : IVec S1024x1 32) (p : Fin 1024) (c : Fin 2048) :
    broadcastTo S1024x2048 v broadcasts_S1024x1_S1024x2048 (ix2 p c) = v (ix2 p (0 : Fin 1)) :=
  broadcastTo_apply v broadcasts_S1024x1_S1024x2048 (ix2 p c) (ix2 p (0 : Fin 1)) (fun a => match a with
    | ⟨0, _⟩ => by show p.val = if (1024 : Nat) = 1 then 0 else p.val; rw [if_neg (by decide)]
    | ⟨1, _⟩ => by show 0 = if (1 : Nat) = 1 then 0 else c.val; rw [if_pos rfl])

/-- A row vector laid down the rows reads, at `(p, c)`, its entry `c`. -/
theorem colEntry_apply {α : Type} (v : S1x2048.Idx → α) (p : Fin 1024) (c : Fin 2048) :
    broadcastTo S1024x2048 v broadcasts_S1x2048_S1024x2048 (ix2 p c) = v (ix2 (0 : Fin 1) c) :=
  broadcastTo_apply v broadcasts_S1x2048_S1024x2048 (ix2 p c) (ix2 (0 : Fin 1) c) (fun a => match a with
    | ⟨0, _⟩ => by show 0 = if (1 : Nat) = 1 then 0 else p.val; rw [if_pos rfl]
    | ⟨1, _⟩ => by show c.val = if (2048 : Nat) = 1 then 0 else c.val; rw [if_neg (by decide)])

/-- THE MASKED LOGIT at row `p`, column `c`: the dense product plus the bias where the row's task word is the column's
    task number, zero elsewhere. -/
theorem masked_apply (v0 : Vec Ideal S1024x512 .f32) (v2 : Vec Ideal S512x2048 .f32) (v6 : Vec Ideal S1x2048 .f32)
    (v10 : Vec Ideal S1024x1 .i32) (v12 : Vec Ideal S1x2048 .i32) (p : Fin 1024) (c : Fin 2048) :
    k0_pay2 (F := Ideal) v0 v2 v6 v10 v12 (ix2 p c)
      = Scalar.select (IntOp.cmpi .eq (v10 (ix2 p (0 : Fin 1))) (v12 (ix2 (0 : Fin 1) c)))
          ((∑ k : Fin 512, v0 (ix2 p k) * v2 (ix2 k c)) + v6 (ix2 (0 : Fin 1) c)) (0 : EReal) := by
  unfold k0_pay2
  simp only [shapeCast_self]
  rw [select_apply]
  show Scalar.select (IntOp.cmpi .eq (broadcastTo S1024x2048 v10 broadcasts_S1024x1_S1024x2048 (ix2 p c))
      (broadcastTo S1024x2048 v12 broadcasts_S1x2048_S1024x2048 (ix2 p c)))
    (matmul (F := Ideal) dot_S1024x512_S512x2048_S1024x2048_1_0_0_1_n_n none (truncf (F := Ideal) .bf16 v0 bitsLt_bf16_f32) (truncf (F := Ideal) .bf16 v2 bitsLt_bf16_f32)
        (constant (F := Ideal) S1024x2048 .f32 0x00000000#32) (ix2 p c)
      + broadcastTo S1024x2048 v6 broadcasts_S1x2048_S1024x2048 (ix2 p c))
    (Ideal.ofBits .f32 0x00000000#32) = _
  rw [rowWord_apply, colEntry_apply, colEntry_apply, dense_apply, Ideal.ofBits_zero_f32]
  rfl

end Cert.KernelIdeal.Masked

end
-- ==== Proof.BlockSum.lean ====
/-
  The stored block in closed form: at row `p`, class `q`, the sum of the sixteen masked columns `q + 128·h` is the
  unmasked value of the row's own head — the dense product with that head's column of the flattened weights plus that
  head's entry of the flattened bias —, provided the row's task number is below 16 and the task-of-column table gives
  column `q + 128·h` the number `h`.
-/
import proofs.«423438_j69303592288436_2_alg».proof.Proof.Masked

noncomputable section

namespace Cert.KernelIdeal.Masked

open Cert.KernelIdeal Cert.KernelIdeal.Gen Idealize.ShloMosaic Idealize.ShloMosaic.TcCoe Idealize.SL.Sem
open Idealize.ShloMosaic.ValueIdx

/-- Head `h`'s unmasked value at row `p`, class `q`, from the loaded blocks (zero for a number that names no head). -/
def headVal (P0 : Vec Ideal S1024x512 .f32) (P1 : Vec Ideal S512x2048 .f32) (P2 : Vec Ideal S1x2048 .f32)
    (p : Fin 1024) (q : Fin 100) (h : Nat) : EReal :=
  if hh : h < 16 then
    (∑ k : Fin 512, P0 (ix2 p k) * P1 (ix2 k (⟨q.val + 128 * h, by omega⟩ : Fin 2048)))
      + P2 (ix2 (0 : Fin 1) (⟨q.val + 128 * h, by omega⟩ : Fin 2048))
  else 0

/-- THE BLOCK AT `(p, q)`: the routed head's unmasked value. -/
theorem block_apply (P0 : Vec Ideal S1024x512 .f32) (P1 : Vec Ideal S512x2048 .f32) (P2 : Vec Ideal S1x2048 .f32)
    (P3 : Vec Ideal S1024x1 .i32) (P4 : Vec Ideal S1x2048 .i32) (p : Fin 1024) (q : Fin 100) (n : Nat) (hn : n < 16)
    (h3 : BitVec.toNat (P3 (ix2 p (0 : Fin 1))) = n)
    (h4 : ∀ (h : Fin 16) (col : Fin 2048), col.val = q.val + 128 * h.val → P4 (ix2 (0 : Fin 1) col) = BitVec.ofNat 32 h.val) :
    Value.E5 (F := Ideal) P0 P1 P2 P3 P4 (ix2 p q) = headVal P0 P1 P2 p q n := by
  have T : ∀ (y' : S1024x2048.Idx) (h : Fin 16), (y' 0).val = p.val → (y' 1).val = q.val + 128 * h.val →
      k0_pay2 (F := Ideal) P0 P1 P2 P3 P4 y' = Cert.Heads.pick n h.val (headVal P0 P1 P2 p q h.val) := by
    intro y' h h0 h1
    obtain ⟨a, b, rfl⟩ : ∃ (a : Fin 1024) (b : Fin 2048), y' = ix2 a b := ⟨y' 0, y' 1, eq_ix2 y'⟩
    obtain rfl : a = p := Fin.ext h0
    have hb : b = (⟨q.val + 128 * h.val, by omega⟩ : Fin 2048) := Fin.ext h1
    rw [masked_apply, h4 h b h1, Cert.Heads.select_eq_pick _ _ (by omega), h3, hb]
    unfold headVal
    rw [dif_pos h.isLt]
  rw [← Cert.Heads.sum_pick (headVal P0 P1 P2 p q) n hn]
  dsimp only [Value.E5]
  rw [T (Value.ix5_0 (ix2 p q)) 0 rfl rfl,
    T (Value.ix5_1 (ix2 p q)) 1 rfl rfl,
    T (Value.ix5_2 (ix2 p q)) 2 rfl rfl,
    T (Value.ix5_3 (ix2 p q)) 3 rfl rfl,
    T (Value.ix5_4 (ix2 p q)) 4 rfl rfl,
    T (Value.ix5_5 (ix2 p q)) 5 rfl rfl,
    T (Value.ix5_6 (ix2 p q)) 6 rfl rfl,
    T (Value.ix5_7 (ix2 p q)) 7 rfl rfl,
    T (Value.ix5_8 (ix2 p q)) 8 rfl rfl,
    T (Value.ix5_9 (ix2 p q)) 9 rfl rfl,
    T (Value.ix5_10 (ix2 p q)) 10 rfl rfl,
    T (Value.ix5_11 (ix2 p q)) 11 rfl rfl,
    T (Value.ix5_12 (ix2 p q)) 12 rfl rfl,
    T (Value.ix5_13 (ix2 p q)) 13 rfl rfl,
    T (Value.ix5_14 (ix2 p q)) 14 rfl rfl,
    T (Value.ix5_15 (ix2 p q)) 15 rfl rfl]
  rfl

end Cert.KernelIdeal.Masked

end
-- ==== Proof.HostArrays.lean ====
/-
  The four arrays the host prepares for the kernel, as the region finds them, each as one term of the arguments:
  the weights padded from 100 to 128 classes per head with zeros, moved to `[512, 16, 128]` and flattened to `[512, 2048]`;
  the bias padded likewise and flattened to `[1, 2048]`; the task-of-column table — the head number where the column
  within its head is below 100, the word of −1 on the 28 pad columns — flattened to `[1, 2048]`; and the task words as
  a `[65536, 1]` column.
-/
import proofs.«423438_j69303592288436_2_alg».proof.Proof.Gen.KernelIdeal.Frame
import Idealize.ShloMosaic.Lib.StableHlo.Run

noncomputable section

namespace Cert.KernelIdeal.HostArrays

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The zero word converted to a float: what both pads fill with. -/
abbrev padZero : FVec F S_ .f32 := sitofp (F := F) .f32 (constantI S_ 32 0#32)

/-- The flattened weights. -/
theorem wflat_eq (c : Dev nD) :
    (V m c main_v3 : S512x2048.Idx → F .f32)
      = shapeCast S512x2048 (transpose S512x16x128 [2, 0, 1]
          (pad S16x128x512 ![0, 0, 0] ![0, 28, 0] ![0, 0, 0] (m ((c : Thread nD τ).loc main_arg2)) (padZero (F := F))
            pads_S16x100x512_S16x128x512_000_0280_000 h_S_)
          transposes_S16x128x512_S512x16x128_2_0_1) shapeCasts_S512x16x128_S512x2048 := by
  dsimp only [V]
  simp only [hostOps0, hostOps0_1, hostOps0_2, hostOps0_3, hostOps0_4, hostOps0_5, hostOps0_6, List.flatten_cons,
    List.flatten_nil, List.append_nil, List.cons_append, List.nil_append]
  after_results <;> (try simp only [TRef.ofBuf, TRef.toBuf, cast_eq]) <;> rfl

/-- The flattened bias. -/
theorem bflat_eq (c : Dev nD) :
    (V m c main_v4 : S1x2048.Idx → F .f32)
      = shapeCast S1x2048 (pad S16x128 ![0, 0] ![0, 28] ![0, 0] (m ((c : Thread nD τ).loc main_arg3)) (padZero (F := F))
            pads_S16x100_S16x128_000_0280 h_S_) shapeCasts_S16x128_S1x2048 := by
  dsimp only [V]
  simp only [hostOps0, hostOps0_1, hostOps0_2, hostOps0_3, hostOps0_4, hostOps0_5, hostOps0_6, List.flatten_cons,
    List.flatten_nil, List.append_nil, List.cons_append, List.nil_append]
  after_results <;> (try simp only [TRef.ofBuf, TRef.toBuf, cast_eq]) <;> rfl

/-- The task-of-column table. -/
theorem taskOfCol_eq (c : Dev nD) :
    (V m c main_v12 : S1x2048.Idx → BitVec 32)
      = shapeCast S1x2048 (select
          (broadcastInDim S16x128 ![0, 1] bcast_S1x128_S16x128_0_1
            (cmpi .slt (broadcastInDim S1x128 ![1] bcast_S128_S1x128_1 (iotaInDim S128 32 0))
              (broadcastInDim S1x128 ![] bcast_S_S1x128 (constantI S_ 32 100#32))))
          (broadcastInDim S16x128 ![0, 1] bcast_S16x1_S16x128_0_1 (broadcastInDim S16x1 ![0] bcast_S16_S16x1_0 (iotaInDim S16 32 0)))
          (broadcastInDim S16x128 ![] bcast_S_S16x128 (id (constantI S_ 32 4294967295#32)))) shapeCasts_S16x128_S1x2048 := by
  dsimp only [V]
  simp only [hostOps0, hostOps0_1, hostOps0_2, hostOps0_3, hostOps0_4, hostOps0_5, hostOps0_6, List.flatten_cons,
    List.flatten_nil, List.append_nil, List.cons_append, List.nil_append]
  after_results <;> (try simp only [TRef.ofBuf, TRef.toBuf, cast_eq]) <;> rfl

/-- The task words as a column. -/
theorem taskCol_eq (c : Dev nD) :
    (V m c main_v13 : S65536x1.Idx → BitVec 32)
      = shapeCast S65536x1 (m ((c : Thread nD τ).loc main_arg1)) shapeCasts_S65536_S65536x1 := by
  dsimp only [V]
  simp only [hostOps0, hostOps0_1, hostOps0_2, hostOps0_3, hostOps0_4, hostOps0_5, hostOps0_6, List.flatten_cons,
    List.flatten_nil, List.append_nil, List.cons_append, List.nil_append]
  after_results <;> (try simp only [TRef.ofBuf, TRef.toBuf, cast_eq]) <;> rfl

end Cert.KernelIdeal.HostArrays

end
-- ==== Proof.HostRead.lean ====
/-
  The four arrays the host prepares for the kernel, read at an index.

  Column `o + 128·h` of the flattened tables belongs to head `h`, class `o` (each head's hundred classes padded to 128
  columns). For `o < 100`: the flattened weights at `(k, o + 128·h)` are `W[h, o, k]`; the flattened bias there is `b[h, o]`;
  the task-of-column table there is the word of `h`. The task column at row `r` is task word `r`.
-/
import proofs.«423438_j69303592288436_2_alg».proof.Proof.HostArrays
import Idealize.ShloMosaic.Lib.Pipeline.Value
import Idealize.ShloMosaic.Lib.KernelVsHost
import Idealize.ShloMosaic.Lib.ValueIdx
import Idealize.ShloMosaic.Lib.StableHlo.Predicate
import Idealize.ShloMosaic.Lib.Affine

noncomputable section

namespace Cert.KernelIdeal.HostArrays

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- The task column at row `r` is task word `r`. -/
theorem taskCol_apply (c : Dev nD) (r : Fin 65536) :
    (V m c main_v13 : S65536x1.Idx → BitVec 32) (ix2 r (0 : Fin 1)) = m ((c : Thread nD τ).loc main_arg1) (ix1 r) := by
  refine (congrFun (taskCol_eq m c) _).trans ?_
  exact shapeCast_apply _ shapeCasts_S65536_S65536x1 (ix2 r (0 : Fin 1)) (ix1 r)
    (by rw [Shape.rowMajor_val_one, Shape.rowMajor_val_two]; show r.val = r.val * 1 + 0; omega)

/-- The flattened bias at column `o + 128·h` is `b[h, o]`. -/
theorem bflat_apply (c : Dev nD) (h : Fin 16) (o : Fin 100) (col : Fin 2048) (hc : col.val = o.val + 128 * h.val) :
    (V m c main_v4 : S1x2048.Idx → F .f32) (ix2 (0 : Fin 1) col) = m ((c : Thread nD τ).loc main_arg3) (ix2 h o) := by
  have ho : o.val < 128 := by omega
  refine (congrFun (bflat_eq m c) _).trans ?_
  refine (shapeCast_apply _ shapeCasts_S16x128_S1x2048 (ix2 (0 : Fin 1) col) (ix2 h (⟨o.val, ho⟩ : Fin 128))
    (by rw [Shape.rowMajor_val_two, Shape.rowMajor_val_two]; show h.val * 128 + o.val = 0 * 2048 + col.val; omega)).trans ?_
  exact pad_apply_of_inside _ _ _ _ _ pads_S16x100_S16x128_000_0280 h_S_ (ix2 h (⟨o.val, ho⟩ : Fin 128)) (ix2 h o)
    (fun a => match a with
      | ⟨0, _⟩ => by show h.val = 0 + h.val * (0 + 1); omega
      | ⟨1, _⟩ => by show o.val = 0 + o.val * (0 + 1); omega)

/-- The flattened weights at `(k, o + 128·h)` are `W[h, o, k]`. -/
theorem wflat_apply (c : Dev nD) (k : Fin 512) (h : Fin 16) (o : Fin 100) (col : Fin 2048) (hc : col.val = o.val + 128 * h.val) :
    (V m c main_v3 : S512x2048.Idx → F .f32) (ix2 k col) = m ((c : Thread nD τ).loc main_arg2) (ix3 h o k) := by
  have ho : o.val < 128 := by omega
  refine (congrFun (wflat_eq m c) _).trans ?_
  refine (shapeCast_apply _ shapeCasts_S512x16x128_S512x2048 (ix2 k col) (ix3 k h (⟨o.val, ho⟩ : Fin 128))
    (by rw [Shape.rowMajor_val_three, Shape.rowMajor_val_two]; show (k.val * 16 + h.val) * 128 + o.val = k.val * 2048 + col.val; omega)).trans ?_
  refine (transpose_apply [2, 0, 1] _ transposes_S16x128x512_S512x16x128_2_0_1 (ix3 k h (⟨o.val, ho⟩ : Fin 128))
    (ix3 h (⟨o.val, ho⟩ : Fin 128) k) (fun b => match b with
      | ⟨0, _⟩ => rfl
      | ⟨1, _⟩ => rfl
      | ⟨2, _⟩ => rfl)).trans ?_
  exact pad_apply_of_inside _ _ _ _ _ pads_S16x100x512_S16x128x512_000_0280_000 h_S_ (ix3 h (⟨o.val, ho⟩ : Fin 128) k) (ix3 h o k)
    (fun a => match a with
      | ⟨0, _⟩ => by show h.val = 0 + h.val * (0 + 1); omega
      | ⟨1, _⟩ => by show o.val = 0 + o.val * (0 + 1); omega
      | ⟨2, _⟩ => by show k.val = 0 + k.val * (0 + 1); omega)

/-- The task-of-column table at column `o + 128·h` is the word of `h` (a class column, not one of the 28 pad columns). -/
theorem taskOfCol_apply (c : Dev nD) (h : Fin 16) (o : Fin 100) (col : Fin 2048) (hc : col.val = o.val + 128 * h.val) :
    (V m c main_v12 : S1x2048.Idx → BitVec 32) (ix2 (0 : Fin 1) col) = BitVec.ofNat 32 h.val := by
  have ho : o.val < 128 := by omega
  refine (congrFun (taskOfCol_eq m c) _).trans ?_
  refine (shapeCast_apply _ shapeCasts_S16x128_S1x2048 (ix2 (0 : Fin 1) col) (ix2 h (⟨o.val, ho⟩ : Fin 128))
    (by rw [Shape.rowMajor_val_two, Shape.rowMajor_val_two]; show h.val * 128 + o.val = 0 * 2048 + col.val; omega)).trans ?_
  show Scalar.select (IntOp.cmpi .slt (BitVec.ofNat 32 o.val) 100#32) (BitVec.ofNat 32 h.val) 4294967295#32 = _
  have hlt : IntOp.cmpi .slt (BitVec.ofNat 32 o.val) 100#32 = 1#1 := by
    rw [IntOp.cmpi_slt, Predicate.toInt_ofNat_small _ (by omega)]
    show (o.val : Int) < 100
    omega
  rw [hlt, select_one]

end Cert.KernelIdeal.HostArrays

end
-- ==== Proof.KernelRouted.lean ====
/-
  The kernel's result array is the routed head.

  Grid point `t` works on rows `1024·t … 1024·t + 1023`: it is handed that block of the features and of the task column,
  and the three flattened tables whole; it writes back that block of the result. Row `p` of the block is row
  `1024·t + p` of the array, so by the block's closed form and the tables' contents the written block is the block of
  `Cert.Heads.routed` of the argument arrays; the sixty-four blocks tile the result array.
-/
import proofs.«423438_j69303592288436_2_alg».proof.Proof.BlockSum
import proofs.«423438_j69303592288436_2_alg».proof.Proof.HostRead

noncomputable section

namespace Cert.KernelIdeal.Routed

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 grid points: the features, the task column and the result move with the
    point along the rows; the three tables stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks a point is handed, by their literal types -/

abbrev xblk (c : Dev nD) (t : Fin cfg0.N) : Vec Ideal S1024x512 .f32 := iblk m c 0 t
abbrev tblk (c : Dev nD) (t : Fin cfg0.N) : Vec Ideal S1024x1 .i32 := iblk m c 1 t
abbrev wblk (c : Dev nD) (t : Fin cfg0.N) : Vec Ideal S512x2048 .f32 := iblk m c 2 t
abbrev bblk (c : Dev nD) (t : Fin cfg0.N) : Vec Ideal S1x2048 .f32 := iblk m c 3 t
abbrev cblk (c : Dev nD) (t : Fin cfg0.N) : Vec Ideal S1x2048 .i32 := iblk m c 4 t

/-- The array row under row `p` of point `t`'s block. -/
abbrev rowOf (t : Fin cfg0.N) (p : Fin 1024) : Fin 65536 :=
  ⟨t.val * 1024 + p.val, by have ht : t.val < 64 := t.isLt; omega⟩

theorem xblk_apply (c : Dev nD) (t : Fin cfg0.N) (p : Fin 1024) (k : Fin 512) :
    xblk m c t (ix2 p k) = m ((c : Thread nD τ).loc main_arg0) (ix2 (rowOf t p) k) := by
  obtain ⟨e00, e01, -⟩ := idx_facts t
  show V m c main_arg0 (((cfg0.win 0).blk t).view.emb (ix2 p k)) = _
  refine (congrFun (V_main_arg0 m c) _).trans (congrArg _ (funext fun a => Fin.ext ?_))
  match a with
  | ⟨0, _⟩ => show win0_0.index t (0 : Fin 2) * 1024 + 1 * p.val = t.val * 1024 + p.val; omega
  | ⟨1, _⟩ => show win0_0.index t (1 : Fin 2) * 512 + 1 * k.val = k.val; omega

theorem tblk_apply (c : Dev nD) (t : Fin cfg0.N) (p : Fin 1024) :
    tblk m c t (ix2 p (0 : Fin 1)) = m ((c : Thread nD τ).loc main_arg1) (ix1 (rowOf t p)) := by
  obtain ⟨-, -, e10, e11, -⟩ := idx_facts t
  refine Eq.trans ?_ (HostArrays.taskCol_apply m c (rowOf t p))
  show V m c main_v13 (((cfg0.win 1).blk t).view.emb (ix2 p (0 : Fin 1))) = V m c main_v13 (ix2 (rowOf t p) (0 : Fin 1))
  refine congrArg _ (funext fun a => Fin.ext ?_)
  match a with
  | ⟨0, _⟩ => show win0_1.index t (0 : Fin 2) * 1024 + 1 * p.val = t.val * 1024 + p.val; omega
  | ⟨1, _⟩ => show win0_1.index t (1 : Fin 2) * 1 + 1 * 0 = 0; omega

theorem wblk_apply (c : Dev nD) (t : Fin cfg0.N) (k : Fin 512) (col : Fin 2048) :
    wblk m c t (ix2 k col) = (V m c main_v3 : S512x2048.Idx → Ideal .f32) (ix2 k col) := by
  obtain ⟨-, -, -, -, e20, e21, -⟩ := idx_facts t
  show V m c main_v3 (((cfg0.win 2).blk t).view.emb (ix2 k col)) = _
  refine congrArg _ (funext fun a => Fin.ext ?_)
  match a with
  | ⟨0, _⟩ => show win0_2.index t (0 : Fin 2) * 512 + 1 * k.val = k.val; omega
  | ⟨1, _⟩ => show win0_2.index t (1 : Fin 2) * 2048 + 1 * col.val = col.val; omega

theorem bblk_apply (c : Dev nD) (t : Fin cfg0.N) (col : Fin 2048) :
    bblk m c t (ix2 (0 : Fin 1) col) = (V m c main_v4 : S1x2048.Idx → Ideal .f32) (ix2 (0 : Fin 1) col) := by
  obtain ⟨-, -, -, -, -, -, e30, e31, -⟩ := idx_facts t
  show V m c main_v4 (((cfg0.win 3).blk t).view.emb (ix2 (0 : Fin 1) col)) = _
  refine congrArg _ (funext fun a => Fin.ext ?_)
  match a with
  | ⟨0, _⟩ => show win0_3.index t (0 : Fin 2) * 1 + 1 * 0 = 0; omega
  | ⟨1, _⟩ => show win0_3.index t (1 : Fin 2) * 2048 + 1 * col.val = col.val; omega

theorem cblk_apply (c : Dev nD) (t : Fin cfg0.N) (col : Fin 2048) :
    cblk m c t (ix2 (0 : Fin 1) col) = (V m c main_v12 : S1x2048.Idx → BitVec 32) (ix2 (0 : Fin 1) col) := by
  obtain ⟨-, -, -, -, -, -, -, -, e40, e41, -⟩ := idx_facts t
  show V m c main_v12 (((cfg0.win 4).blk t).view.emb (ix2 (0 : Fin 1) col)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * col.val = col.val; omega

/-! ## What a point writes back -/

/-- The routed head of the argument arrays as launched. -/
abbrev result (c : Dev nD) : S65536x100.Idx → Ideal .f32 :=
  Cert.Heads.routed (m ((c : Thread nD τ).loc main_arg0)) (m ((c : Thread nD τ).loc main_arg1))
    (m ((c : Thread nD τ).loc main_arg2)) (m ((c : Thread nD τ).loc main_arg3))

/-- WHAT POINT `t` WRITES BACK is block `t` of the routed head, where every task word is below 16. -/
theorem flushed_eq (hr : ∀ (c : Dev nD) (r : Fin 65536), BitVec.toNat (m ((c : Thread nD τ).loc main_arg1) (ix1 r)) < 16)
    (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  simp only [View.ld_unit_zero (S := S1024x512) hz, View.ld_unit_zero (S := S512x2048) hz,
    View.ld_unit_zero (S := S1x2048) hz, View.ld_unit_zero (S := S1024x1) hz]
  obtain ⟨-, -, -, -, -, -, -, -, -, -, e50, e51⟩ := idx_facts t
  funext j
  refine (Value.canon5_eq (xblk m c t) (wblk m c t) (bblk m c t) (tblk m c t) (cblk m c t) j).trans ?_
  obtain ⟨p, q, rfl⟩ : ∃ (p : Fin 1024) (q : Fin 100), j = ix2 p q := ⟨j 0, j 1, eq_ix2 j⟩
  have hn := hr c (rowOf t p)
  refine (Masked.block_apply (xblk m c t) (wblk m c t) (bblk m c t) (tblk m c t) (cblk m c t) p q _ hn
    (congrArg BitVec.toNat (tblk_apply m c t p))
    (fun h col hc => (cblk_apply m c t col).trans (HostArrays.taskOfCol_apply m c h q col hc))).trans ?_
  -- the routed head at the array index under (p, q)
  have hemb : ((cfg0.win 5).blk t).view.emb (ix2 p q) = ix2 (rowOf t p) q := funext fun a => Fin.ext (by
    match a with
    | ⟨0, _⟩ => show win0_5.index t (0 : Fin 2) * 1024 + 1 * p.val = t.val * 1024 + p.val; omega
    | ⟨1, _⟩ => show win0_5.index t (1 : Fin 2) * 100 + 1 * q.val = q.val; omega)
  show _ = result m c (((cfg0.win 5).blk t).view.emb (ix2 p q))
  rw [hemb]
  have hh : Cert.Heads.head (m ((c : Thread nD τ).loc main_arg1)) (rowOf t p)
      = (⟨BitVec.toNat (m ((c : Thread nD τ).loc main_arg1) (ix1 (rowOf t p))), hn⟩ : Fin 16) :=
    Fin.ext (Nat.min_eq_left (Nat.lt_succ_iff.mp hn))
  show _ = Cert.Heads.logit _ _ _ (rowOf t p) (Cert.Heads.head (m ((c : Thread nD τ).loc main_arg1)) (rowOf t p)) q
  rw [hh]
  unfold Masked.headVal Cert.Heads.logit
  rw [dif_pos hn, bblk_apply, HostArrays.bflat_apply m c ⟨_, hn⟩ q _ rfl]
  congr 1
  refine Finset.sum_congr rfl fun k _ => ?_
  rw [xblk_apply, wblk_apply, HostArrays.wflat_apply m c k ⟨_, hn⟩ q _ rfl]

/-! ## The array after the run -/

/-- The sixty-four blocks tile the result array, so it ends holding the routed head. -/
theorem final (hr : ∀ (c : Dev nD) (r : Fin 65536), BitVec.toNat (m ((c : Thread nD τ).loc main_arg1) (ix1 r)) < 16)
    (c : Dev nD) : (dats m 0 c).arrAt 5 cfg0.N = result m c :=
  (dats m 0 c).arrAt_eq_of_cover 5 (result m c) (fun t _ => flushed_eq m hr c t) fun i => by
    have hi0 : (i 0).val < 65536 := (i 0).isLt
    have hi1 : (i 1).val < 100 := (i 1).isLt
    let t : Fin cfg0.N := ⟨(i 0).val / 1024, by show (i 0).val / 1024 < 64; omega⟩
    obtain ⟨-, -, -, -, -, -, -, -, -, -, e50, e51⟩ := idx_facts t
    have e50' : win0_5.index t (0 : Fin 2) = (i 0).val / 1024 := e50
    refine ⟨t, flush0_5 t, ?_⟩
    show i ∈ ((View.whole main_v14).slice (win0_5.rect t)).set
    rw [View.set_slice_whole, Rect.mem_set_unit]
    intro a
    match a with
    | ⟨0, _⟩ =>
      show win0_5.index t (0 : Fin 2) * 1024 ≤ (i 0).val ∧ (i 0).val < win0_5.index t (0 : Fin 2) * 1024 + 1024
      omega
    | ⟨1, _⟩ =>
      show win0_5.index t (1 : Fin 2) * 100 ≤ (i 1).val ∧ (i 1).val < win0_5.index t (1 : Fin 2) * 100 + 100
      omega

/-- The kernel's run, re-posted: the result array at the routed head, the arguments unchanged. -/
theorem run (hr : ∀ (c : Dev nD) (r : Fin 65536), BitVec.toNat (m ((c : Thread nD τ).loc main_arg1) (ix1 r)) < 16) :
    θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hr c), (h c).2⟩) (Value.run_blocks m ρ)

end Cert.KernelIdeal.Routed

end
-- ==== Proof.LibGatherBatchRow.lean ====
/-
  A batched gather of one row per batch entry, read at an index.

  `jnp.take_along_axis(x, idx[:, None, None], axis=1)` over a table `x : [B, N, D]` and one start index per batch entry,
  `idx : [B, 1, 1]`, is a `stablehlo.gather` whose operand axis 0 is a BATCHING axis (paired with the start indices' axis 0),
  whose operand axis 1 is the collapsed axis the start index names, and whose operand axis 2 is kept whole (slice size `D`,
  the result's one offset axis). Result element `(b, 0, e)` is therefore `x[b, idx[b, 0, 0], e]`, the start index read as a
  signed integer and clamped into `[0, N − 1]`, as StableHLO's gather clamps every start index.
-/
import Idealize.ShloMosaic.PureOps
import Idealize.ShloMosaic.Lib.ValueIdx

namespace Idealize.ShloMosaic.GatherBatchRow

open Idealize.ShloMosaic.ValueIdx

variable {α : Type}

/-- Those dimension numbers for a table `[B, N, D]`, start indices `[B, 1, 1]` and a result `[B, 1, D]`; their conditions
    `wf` are decided on a program's literal shapes. -/
abbrev dims (B N D : Nat)
    (wf : GatherDims.WF ⟨3, ![B, N, D]⟩ ⟨3, ![B, 1, 1]⟩ ⟨3, ![B, 1, D]⟩ [2] [1] [0] [1] [0] 2 ![1, 1, D]) :
    GatherDims ⟨3, ![B, N, D]⟩ ⟨3, ![B, 1, 1]⟩ ⟨3, ![B, 1, D]⟩ where
  offsetDims := [2]
  collapsedSliceDims := [1]
  operandBatchingDims := [0]
  startIndicesBatchingDims := [0]
  startIndexMap := [1]
  indexVectorDim := 2
  sliceSizes := ![1, 1, D]
  wf := wf

section
variable {B N D w : Nat}
  (wf : GatherDims.WF ⟨3, ![B, N, D]⟩ ⟨3, ![B, 1, 1]⟩ ⟨3, ![B, 1, D]⟩ [2] [1] [0] [1] [0] 2 ![1, 1, D])
  (idx : IVec ⟨3, ![B, 1, 1]⟩ w) (b : Fin B) (e : Fin D)

/-- The start-indices index at which result index `(b, 0, e)` reads its one start component: `[b, 0, 0]` (the batch
    coordinates of the result, and component 0 on the index vector's axis). -/
theorem siIdx_row :
    (dims B N D wf).siIdx (ix3 b (0 : Fin 1) e)
        ⟨List.idxOf (1 : Fin 3) (dims B N D wf).startIndexMap, List.idxOf_lt_length_iff.2 (List.mem_singleton.mpr rfl)⟩
      = ix3 b (0 : Fin 1) (0 : Fin 1) := by
  funext a
  refine Fin.ext ?_
  match a with
  | ⟨0, _⟩ => rfl
  | ⟨1, _⟩ => rfl
  | ⟨2, _⟩ => rfl

/-- On the batching axis the gather reads the result's own batch coordinate. -/
theorem operandIdx_batch :
    ((dims B N D wf).operandIdx (ix3 b (0 : Fin 1) e) idx (0 : Fin 3)).val = b.val := by
  show (dims B N D wf).start _ idx 0 + (dims B N D wf).batchCoord _ 0 + (dims B N D wf).offCoord _ 0 = _
  rw [GatherDims.start_batching _ _ _ _ (List.mem_singleton.mpr rfl),
    GatherDims.offCoord_eq_zero _ _ _ (fun h => ((GatherDims.mem_sKept _ _).mp h).2 (List.mem_singleton.mpr rfl))]
  rw [Nat.zero_add, Nat.add_zero]
  unfold GatherDims.batchCoord
  rw [dif_pos (List.mem_singleton.mpr rfl)]
  rfl

/-- On the collapsed axis the gather reads the clamped start index: no batch coordinate, no offset. -/
theorem operandIdx_row :
    ((dims B N D wf).operandIdx (ix3 b (0 : Fin 1) e) idx (1 : Fin 3)).val
      = min (idx (ix3 b (0 : Fin 1) (0 : Fin 1))).toInt.toNat (N - 1) := by
  show (dims B N D wf).start _ idx 1 + (dims B N D wf).batchCoord _ 1 + (dims B N D wf).offCoord _ 1 = _
  rw [GatherDims.batchCoord_eq_zero _ _ _ (show ¬(1 : Fin 3) ∈ ([0] : List (Fin 3)) by decide),
    GatherDims.offCoord_eq_zero _ _ _ (fun h => ((GatherDims.mem_sKept _ _).mp h).1 (List.mem_singleton.mpr rfl))]
  unfold GatherDims.start
  rw [dif_pos (show (1 : Fin 3) ∈ (dims B N D wf).startIndexMap from List.mem_singleton.mpr rfl), siIdx_row]
  rfl

/-- On the kept axis the gather reads the result's offset coordinate: the slice starts at 0 there. -/
theorem operandIdx_col :
    ((dims B N D wf).operandIdx (ix3 b (0 : Fin 1) e) idx (2 : Fin 3)).val = e.val := by
  show (dims B N D wf).start _ idx 2 + (dims B N D wf).batchCoord _ 2 + (dims B N D wf).offCoord _ 2 = _
  rw [GatherDims.batchCoord_eq_zero _ _ _ (show ¬(2 : Fin 3) ∈ ([0] : List (Fin 3)) by decide)]
  unfold GatherDims.start
  rw [dif_neg (show ¬(2 : Fin 3) ∈ ([1] : List (Fin 3)) by decide), Nat.add_zero, Nat.zero_add]
  unfold GatherDims.offCoord
  rw [dif_pos ((GatherDims.mem_sKept _ _).2
    ⟨show ¬(2 : Fin 3) ∈ ([1] : List (Fin 3)) by decide, show ¬(2 : Fin 3) ∈ ([0] : List (Fin 3)) by decide⟩)]
  rfl

end

/-- THE GATHER READ AT `(b, 0, e)`: the table at batch entry `b`, at the row `idx[b, 0, 0]` read signed and clamped into
    `[0, N − 1]`, at column `e`. -/
theorem gather_batch_row_apply {B N D w : Nat} (hN : 0 < N)
    (wf : GatherDims.WF ⟨3, ![B, N, D]⟩ ⟨3, ![B, 1, 1]⟩ ⟨3, ![B, 1, D]⟩ [2] [1] [0] [1] [0] 2 ![1, 1, D])
    (x : (⟨3, ![B, N, D]⟩ : Shape).Idx → α) (idx : IVec ⟨3, ![B, 1, 1]⟩ w) (b : Fin B) (e : Fin D) :
    Host.gather (dims B N D wf) x idx (ix3 b (0 : Fin 1) e)
      = x (ix3 b ⟨min (idx (ix3 b (0 : Fin 1) (0 : Fin 1))).toInt.toNat (N - 1), by omega⟩ e) := by
  unfold Host.gather
  refine congrArg x (funext fun a => Fin.ext ?_)
  match a with
  | ⟨0, _⟩ => exact operandIdx_batch wf idx b e
  | ⟨1, _⟩ => exact operandIdx_row wf idx b e
  | ⟨2, _⟩ => exact operandIdx_col wf idx b e

end Idealize.ShloMosaic.GatherBatchRow
-- ==== Proof.RefRouted.lean ====
/-
  The reference computes the routed head.

  It forms all sixteen heads' logits for every sample, then gathers along the head axis at the sample's task word (wrapped
  if negative, clamped by the gather) and keeps the gathered row only where the wrapped word lies in `[0, 15]`. Where every
  task word is below 16 the wrap does nothing, the range test passes, the clamp does nothing: the result at `(r, o)` is
  logit `o` of head `task[r]`.
-/
import proofs.«423438_j69303592288436_2_alg».proof.Proof.ReferenceRead
import proofs.«423438_j69303592288436_2_alg».proof.Proof.Spec
import proofs.«423438_j69303592288436_2_alg».proof.Proof.LibGatherBatchRow
import Idealize.ShloMosaic.Lib.StableHlo.Predicate
import Idealize.ShloMosaic.Lib.Affine

noncomputable section

namespace Cert.ReferenceIdeal.Routed

open Cert.ReferenceIdeal Cert.ReferenceIdeal.Gen Cert.ReferenceIdeal.ReadP Idealize.ShloMosaic Idealize.ShloMosaic.TcCoe
open Idealize.ShloMosaic.ValueIdx Idealize.ShloMosaic.StableHlo

/-! ## Words below 16 -/

theorem toInt_small (t : BitVec 32) (ht : t.toNat < 16) : t.toInt = (t.toNat : Int) :=
  Predicate.toInt_eq_toNat_of_lt (by omega)

/-- A word below 16 is not negative: the signed test `t < 0` fails. -/
theorem slt_zero_small (t : BitVec 32) (ht : t.toNat < 16) : IntOp.cmpi .slt t 0#32 = 0#1 :=
  eq_zero_of_ne_one fun h1 => by
    have h := IntOp.cmpi_slt.1 h1
    rw [toInt_small t ht] at h
    have h0 : (0#32 : BitVec 32).toInt = 0 := by decide
    omega

theorem sge_zero_small (t : BitVec 32) (ht : t.toNat < 16) : IntOp.cmpi .sge t 0#32 = 1#1 :=
  IntOp.cmpi_sge.2 (by
    rw [toInt_small t ht]
    have h0 : (0#32 : BitVec 32).toInt = 0 := by decide
    omega)

theorem sle_fifteen_small (t : BitVec 32) (ht : t.toNat < 16) : IntOp.cmpi .sle t 15#32 = 1#1 :=
  IntOp.cmpi_sle.2 (by
    rw [toInt_small t ht]
    have h0 : (15#32 : BitVec 32).toInt = 15 := by decide
    omega)

/-- An `and`-fold from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-! ## The wrapped index, the range mask and the gather -/

section
variable (x1 : (⟨S65536, .i32⟩ : BufTy).Contents (Elt Ideal)) (hr : ∀ r : Fin 65536, (x1 (ix1 r)).toNat < 16)
include hr

/-- The wrap `t < 0 ? t + 16 : t` leaves a task word below 16 as it is. -/
theorem wrapped_apply (r : Fin 65536) :
    val_main_call0_v4 (F := Ideal) x1 (ix3 r (0 : Fin 1) (0 : Fin 1)) = x1 (ix1 r) := by
  rw [val_main_call0_v4_apply, val_main_call0_v1_apply, val_main_v4_apply]
  have hi : idx_main_v4 (ix3 r (0 : Fin 1) (0 : Fin 1)) = ix1 r := funext fun a => Fin.ext (by
    match a with
    | ⟨0, _⟩ => rfl)
  rw [hi]
  have hz : val_main_call0_v0 (F := Ideal) (ix3 r (0 : Fin 1) (0 : Fin 1)) = 0#32 := rfl
  rw [hz, slt_zero_small _ (hr r), select_zero]

theorem wrapped_apply' (i : S65536x1x1.Idx) :
    val_main_call0_v4 (F := Ideal) x1 i = x1 (ix1 (i 0)) := by
  have hi : i = ix3 (i 0) (0 : Fin 1) (0 : Fin 1) := funext fun a => Fin.ext (by
    match a with
    | ⟨0, _⟩ => rfl
    | ⟨1, _⟩ => have h : (i 1).val < 1 := (i 1).isLt; show (i 1).val = 0; omega
    | ⟨2, _⟩ => have h : (i 2).val < 1 := (i 2).isLt; show (i 2).val = 0; omega)
  rw [hi]
  exact wrapped_apply x1 hr (i 0)

/-- Every wrapped word passes the range test `0 ≤ · ≤ 15`. -/
theorem inRange_apply (i : S65536x1x1.Idx) : val_main_call0_v10 (F := Ideal) x1 i = 1#1 := by
  rw [val_main_call0_v10_apply, val_main_call0_v6_apply, val_main_call0_v9_apply, wrapped_apply' x1 hr i]
  have h5 : val_main_call0_v5 (F := Ideal) i = 0#32 := rfl
  have h8 : val_main_call0_v8 (F := Ideal) i = 15#32 := rfl
  rw [h5, h8, sge_zero_small _ (hr (i 0)), sle_fifteen_small _ (hr (i 0))]
  decide

/-- So the mask that decides between the gathered row and the fill is 1 everywhere. -/
theorem mask_apply (j : S65536x1x100.Idx) : val_main_call0_v13 (F := Ideal) x1 j = 1#1 := by
  rw [val_main_call0_v13_apply]
  unfold val_main_call0_v11
  rw [Host.reduce_eq_foldl]
  exact foldl_andi_ones _ (inRange_apply x1 hr) _

end

/-! ## The reference's result -/

/-- THE REFERENCE IS THE ROUTED HEAD: where every task word is below 16, its result stage is `Cert.Heads.routed`. -/
theorem result_routed (x0 : (⟨S65536x512, .f32⟩ : BufTy).Contents (Elt Ideal)) (x1 : (⟨S65536, .i32⟩ : BufTy).Contents (Elt Ideal))
    (x2 : (⟨S16x100x512, .f32⟩ : BufTy).Contents (Elt Ideal)) (x3 : (⟨S16x100, .f32⟩ : BufTy).Contents (Elt Ideal))
    (hr : ∀ r : Fin 65536, (x1 (ix1 r)).toNat < 16) :
    val_main_v6 (F := Ideal) x0 x1 x2 x3 = Cert.Heads.routed x0 x1 x2 x3 := by
  funext i
  obtain ⟨r, o, rfl⟩ : ∃ (r : Fin 65536) (o : Fin 100), i = ix2 r o := ⟨i 0, i 1, eq_ix2 i⟩
  rw [val_main_v6_apply]
  have hi : idx_main_v6 (ix2 r o) = ix3 r (0 : Fin 1) o := funext fun a => Fin.ext (by
    match a with
    | ⟨0, _⟩ => show (r.val * 100 + o.val) / 100 = r.val; omega
    | ⟨1, _⟩ => rfl
    | ⟨2, _⟩ => show (r.val * 100 + o.val) % 100 = o.val; omega)
  rw [hi, val_main_v5_apply, mask_apply x1 hr, select_one]
  -- the gather reads head `task[r]`
  have hg : val_main_call0_v12 (F := Ideal) x0 x1 x2 x3 (ix3 r (0 : Fin 1) o)
      = val_main_v3 (F := Ideal) x0 x2 x3 (ix3 r (Cert.Heads.head x1 r) o) := by
    unfold val_main_call0_v12
    show Host.gather (GatherBatchRow.dims 65536 16 100 gather_S65536x16x100_S65536x1x1_S65536x1x100_2_1_0_0_1_2_11100_wf) _ _ (ix3 r (0 : Fin 1) o) = _
    rw [GatherBatchRow.gather_batch_row_apply (by decide)]
    congr 2
    refine Fin.ext ?_
    show min (val_main_call0_v4 (F := Ideal) x1 (ix3 r (0 : Fin 1) (0 : Fin 1))).toInt.toNat (16 - 1) = min (x1 (ix1 r)).toNat 15
    rw [wrapped_apply x1 hr r, toInt_small _ (hr r)]
    rfl
  rw [hg, val_main_v3_apply, val_main_v0_apply, val_main_v2_apply, val_main_v1_apply]
  have el : ∀ k : Fin 512, lidx_main_v0 (ix3 r (Cert.Heads.head x1 r) o) k = ix2 r k := fun k => funext fun a => Fin.ext (by
    match a with
    | ⟨0, _⟩ => rfl
    | ⟨1, _⟩ => rfl)
  have er : ∀ k : Fin 512, ridx_main_v0 (ix3 r (Cert.Heads.head x1 r) o) k = ix3 (Cert.Heads.head x1 r) o k := fun k => funext fun a => Fin.ext (by
    match a with
    | ⟨0, _⟩ => rfl
    | ⟨1, _⟩ => rfl
    | ⟨2, _⟩ => rfl)
  have eb : idx_main_v1 (idx_main_v2 (ix3 r (Cert.Heads.head x1 r) o)) = ix2 (Cert.Heads.head x1 r) o := funext fun a => Fin.ext (by
    match a with
    | ⟨0, _⟩ => rfl
    | ⟨1, _⟩ => rfl)
  simp only [el, er, eb]
  rfl

end Cert.ReferenceIdeal.Routed

end
-- ==== Proof.lean ====
/-
  A task-routed bank of sixteen linear heads: for each of 65536 samples, the logits `W[t] · x + b[t]` of the one head
  `t` its task word names.

  THE KERNEL computes all sixteen heads at once. The host pads each head's hundred classes to 128 columns and flattens
  weights, bias and a task-of-column table (head number on class columns, −1 on pad columns) to width 2048. Per block of
  1024 samples the kernel takes one dense product of the features with the flattened weights, adds the flattened bias,
  keeps a column only where the sample's task word equals the column's task number (a select against zero, not a
  product), and adds the sixteen 128-column slices; the first hundred columns are the result.

  THE REFERENCE forms every head's logits (`einsum` plus bias) and gathers along the head axis at the task word.

  At the ideal values both are the same function, `Cert.Heads.routed`, whenever every task word lies in `[0, 16)` — the
  range the precondition states: of the kernel's sixteen masked terms fifteen are exactly zero, and zero is neutral
  for the sum of extended reals, so no finiteness is used; the reference's wrap of negative indices, its range mask
  and the gather's clamp are all the identity on that range. Outside it the two differ (a word of −1 wraps to head
  15 in the reference and matches no column in the kernel), which is why the range is part of the statement.

  Modules: `Spec` (the function and the sum of masked terms), `PreRange` (the range read off the precondition),
  `HostArrays` / `HostRead` (the flattened tables at an index), `Masked` / `BlockSum` (a stored block in closed form),
  `KernelRouted` (the kernel's result array), `LibGatherBatchRow` / `RefRouted` (the reference's result), over the
  generated frames, value leg and the reference's run.
-/
import proofs.«423438_j69303592288436_2_alg».proof.Defs
import proofs.«423438_j69303592288436_2_alg».proof.Proof.Gen.Kernel
import proofs.«423438_j69303592288436_2_alg».proof.Proof.Gen.Kernel.Skeleton
import proofs.«423438_j69303592288436_2_alg».proof.Proof.Gen.Kernel.Launch
import proofs.«423438_j69303592288436_2_alg».proof.Proof.Gen.Kernel.Points
import proofs.«423438_j69303592288436_2_alg».proof.Proof.Gen.Kernel.Frame
import proofs.«423438_j69303592288436_2_alg».proof.Proof.Gen.KernelIdeal
import proofs.«423438_j69303592288436_2_alg».proof.Proof.Gen.KernelIdeal.Skeleton
import proofs.«423438_j69303592288436_2_alg».proof.Proof.Gen.KernelIdeal.Launch
import proofs.«423438_j69303592288436_2_alg».proof.Proof.Gen.KernelIdeal.Points
import proofs.«423438_j69303592288436_2_alg».proof.Proof.Gen.KernelIdeal.Frame
import proofs.«423438_j69303592288436_2_alg».proof.Proof.Gen.ReferenceIdeal
import proofs.«423438_j69303592288436_2_alg».proof.Proof.Gen.Pre_finite_inputs
import proofs.«423438_j69303592288436_2_alg».proof.Proof.Gen.KernelIdeal.Value
import proofs.«423438_j69303592288436_2_alg».proof.Proof.ReferenceRun
import proofs.«423438_j69303592288436_2_alg».proof.Proof.ReferenceRead
import proofs.«423438_j69303592288436_2_alg».proof.Proof.PreRange
import proofs.«423438_j69303592288436_2_alg».proof.Proof.KernelRouted
import proofs.«423438_j69303592288436_2_alg».proof.Proof.RefRouted
import Idealize.ShloMosaic.Adequacy
import Idealize.ShloMosaic.Init

noncomputable section

namespace Cert.Proof

open Idealize.ShloMosaic Idealize.SL.Sem Idealize.ShloMosaic.ValueIdx

/-- The word-level kernel runs and keeps its arguments: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end at the routed head of the (agreeing) arguments. -/
theorem algebraic : Cert.algebraic_KernelIdeal_ReferenceIdeal := by
  intro m ρ m' ρ' hpre hagree
  -- the precondition puts every task word below 16
  have hr : ∀ (c : Dev Cert.KernelIdeal.nD) (r : Fin 65536),
      BitVec.toNat (m ((c.tc : Thread Cert.KernelIdeal.nD Cert.KernelIdeal.τ).loc Cert.KernelIdeal.main_arg1) (ix1 r)) < 16 :=
    fun c r => Cert.Heads.Pre.task_lt _ _ _ _ (hpre c) r
  refine ⟨fun c => Cert.KernelIdeal.Routed.result m c, Cert.KernelIdeal.Routed.run m ρ hr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v6_eq, (hagree c).1, (hagree c).2.1, (hagree c).2.2.1, (hagree c).2.2.2]
  exact Cert.ReferenceIdeal.Routed.result_routed _ _ _ _ (hr c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
